-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x1024 : Shape := ⟨3, ![32, 4096, 1024]⟩
abbrev S_ : Shape := ⟨0, ![]⟩

class Facts : Prop where
  bcast_S_S32x4096x1024 : S_.BroadcastsInDim S32x4096x1024 (![] : Fin 0 → Fin S32x4096x1024.rank)
  reducesTo_S32x4096x1024_S_d0_1_2 : S32x4096x1024.ReducesTo [0, 1, 2] S_
  h_S_ : 0 < S_.numel

variable [Facts]

def fn {F : FTy → Type} [FloatOps F] (main_arg0 : FVec F S32x4096x1024 .f32) : IVec S_ 1 :=
  let main_v0 : FVec F S32x4096x1024 .f32 := Host.absf main_arg0
  let main_cst : FVec F S_ .f32 := constant S_ .f32 0x7F800000#32
  let main_v1 : FVec F S32x4096x1024 .f32 := broadcastInDim S32x4096x1024 ![] bcast_S_S32x4096x1024 main_cst
  let main_v2 : IVec S32x4096x1024 1 := cmpf .olt main_v0 main_v1
  let main_c : IVec S_ 1 := constantI S_ 1 1#1
  let main_v3 : IVec S_ 1 := (fun x v => Host.reduce IntOp.andi x v reducesTo_S32x4096x1024_S_d0_1_2 h_S_) main_v2 main_c
  main_v3
-- ==== Kernel.lean ====
abbrev S32x4096x1024 : Shape := ⟨3, ![32, 4096, 1024]⟩
abbrev S131072x1024 : Shape := ⟨2, ![131072, 1024]⟩
abbrev S2048x1024 : Shape := ⟨2, ![2048, 1024]⟩

abbrev nBuf : Space → Nat
  | .hbm => 4
  | .vmem => 4
  | .smem => 0
  | _ => 0

abbrev bufTy : (tb : Table) → Fin (tcTables nBuf tb) → BufTy
  | .hbm, ⟨0, _⟩ => ⟨S32x4096x1024, .f32⟩
  | .hbm, ⟨1, _⟩ => ⟨S131072x1024, .f32⟩
  | .hbm, ⟨2, _⟩ => ⟨S131072x1024, .f32⟩
  | .hbm, ⟨3, _⟩ => ⟨S32x4096x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | _, _ => ⟨S32x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x4096x1024_S131072x1024 : S32x4096x1024.ShapeCasts S131072x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S131072x1024_S32x4096x1024 : S131072x1024.ShapeCasts S32x4096x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S131072x1024.size a
  hwx0_0 : ∀ i : grid0.Coords, EltTy.bits .f32 = 32 ∨ (Rect.block (s := S131072x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S131072x1024.size a
  hwx0_1 : ∀ i : grid0.Coords, EltTy.bits .f32 = 32 ∨ (Rect.block (s := S131072x1024) S2048x1024.size (cc0_transform_1 i) (hinb0_1 i)).WholeWords (EltTy.packing .f32)

variable [Facts₀]

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S32x4096x1024 : Shape := ⟨3, ![32, 4096, 1024]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S32x4096x1024, .f32⟩
  | .hbm, ⟨1, _⟩ => ⟨S_, .f32⟩
  | .hbm, ⟨2, _⟩ => ⟨S32x4096x1024, .f32⟩
  | .hbm, ⟨3, _⟩ => ⟨S32x4096x1024, .f32⟩
  | _, _ => ⟨S32x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  bcast_S_S32x4096x1024 : S_.BroadcastsInDim S32x4096x1024 (![] : Fin 0 → Fin S32x4096x1024.rank)

variable [Facts₀]

class Facts : Prop extends Facts₀ where

variable [Facts]
-- ==== Proof.Relu.lean ====
/-
  The rectified linear unit as ONE function of an array, at any float instance: element by element the
  maximum of the entry and the float whose word is zero. Both programs compute it: the kernel block by block
  on the array flattened to rows, the reference in one host operation on the array as given. Nothing here
  depends on which numbers the instance's floats are: the two sides apply the same scalar operation to the
  same entry and the same constant word, so the only content is that flattening, rectifying and restoring
  the shape is rectifying.
-/
import Idealize.ShloMosaic.PureOps
import Idealize.ShloMosaic.Lib.Pipeline.Value

noncomputable section

namespace Cert.Relu

open Idealize.ShloMosaic

variable {F : FTy → Type} [FloatOps F]

/-- `relu s x`: every entry of `x` replaced by its maximum with the zero word's float. -/
def relu (s : Shape) (x : FVec F s .f32) : FVec F s .f32 :=
  fun i => FloatOps.maximumf (x i) (FloatOps.ofBits .f32 0x00000000#32)

/-- The kernel body's arithmetic, a vector maximum against a splat of the scalar zero, is `relu`. -/
theorem maximumf_splat_zero (s : Shape) (x : FVec F s .f32) :
    maximumf x (broadcast s (Scalar.ofBits (F := F) .f32 0x00000000#32)) = relu s x := rfl

/-- The reference's arithmetic, a host maximum against the zero constant broadcast from rank zero, is `relu`. -/
theorem maximumf_bcast_zero (s0 s : Shape) (dims : Fin s0.rank → Fin s.rank) (h : s0.BroadcastsInDim s dims)
    (x : FVec F s .f32) :
    maximumf x (broadcastInDim s dims h (constant (F := F) s0 .f32 0x00000000#32)) = relu s x := rfl

/-- `relu` acts entry by entry, so it commutes with any re-indexing: rectifying the array read under another
    shape and reading the result back under the first shape is rectifying the array. -/
theorem shapeCast_relu_shapeCast {s t : Shape} (x : FVec F s .f32) (h : s.ShapeCasts t) (h' : t.ShapeCasts s) :
    shapeCast s (relu t (shapeCast t x h)) h' = relu s x := by
  funext i
  show FloatOps.maximumf (shapeCast s (shapeCast t x h) h' i) _ = _
  rw [shapeCast_shapeCast]
  rfl

end Cert.Relu

end
-- ==== Proof.KernelValue.lean ====
/-
  What the idealized kernel program leaves in its result, as one function of its argument.

  The program flattens the [32, 4096, 1024] argument to [131072, 1024] rows, copies the rows into the buffer the
  pipelined call writes over, runs the call on a grid of 64 points, and restores the shape. At point `t` the
  body loads rows 2048·t … 2048·t + 2047 (all 1024 columns), takes the maximum of every entry with zero, and stores
  the block; the write-back puts it at the same rows of the result's array. The input and the output window use
  the same index map (block row `t`, block column `0`), so the block written back at `t` is the restriction of
  `relu` of the flattened argument to those rows; the 64 blocks tile the 131072 rows (row `r` lies in block
  `r / 2048`), so after the run the whole array is `relu` of the flattened argument, and the final reshape of it
  is `relu` of the argument itself, because `relu` acts entry by entry.
-/
import proofs.«405105_j20572893348680_3_alg».proof.Proof.Gen.KernelIdeal.Frame
import proofs.«405105_j20572893348680_3_alg».proof.Proof.Relu
import Idealize.ShloMosaic.Lib.Pipeline.Value
import Idealize.ShloMosaic.Lib.StableHlo.Run

set_option maxRecDepth 16384

noncomputable section

namespace Cert.KernelIdeal.Rows

open Idealize.ShloMosaic Idealize.ShloMosaic.TcCoe Idealize.SL.Sem
open Cert.KernelIdeal Cert.KernelIdeal.Gen Cert.Relu
open Idealize.ShloMosaic.Pipeline (Dat)

variable {F : FTy → Type} [FloatOps F]
variable (m : (ℓ : Loc nD τ sig) → Buf (Elt F) ℓ) (ρ : Dev nD → PrngReg)

/-! ## The array the call's input window stages -/

/-- The input window's array, as the call finds it, is the argument flattened to rows. -/
theorem entry_rows (c : Dev nD) :
    (V m c main_v0 : S131072x1024.Idx → Elt F .f32)
      = shapeCast S131072x1024 (m ((c : Thread nD τ).loc main_arg0)) shapeCasts_S32x4096x1024_S131072x1024 := by
  show StableHlo.after hostOps0 (fun b => m (c, b)) (Proc.devRef .tc main_v0) = _
  after_results
  rfl

/-! ## One point's block -/

theorem zero_offsets : (![0, 0] : Fin 2 → Nat) = fun _ => 0 := funext fun a => by fin_cases a <;> rfl

/-- The body's stored value is `relu` of the loaded block: its shape cast is to the block's own shape. -/
theorem payload_eq (x0 : Vec F S2048x1024 .f32) : k0_pay1 x0 = relu S2048x1024 x0 := by
  show maximumf (shapeCast S2048x1024 x0 shapeCasts_S2048x1024_S2048x1024)
      (broadcast S2048x1024 (Scalar.ofBits (F := F) .f32 0x00000000#32)) = _
  rw [shapeCast_self]
  rfl

/-- The two windows' index maps, decided over the 64 points: both read block row `t`, block column `0`. -/
theorem index_facts : ∀ t : Fin cfg0.N, win0_0.index t (0 : Fin 2) = win0_1.index t (0 : Fin 2)
    ∧ win0_0.index t (1 : Fin 2) = win0_1.index t (1 : Fin 2)
    ∧ win0_1.index t (0 : Fin 2) = t.val
    ∧ win0_1.index t (1 : Fin 2) = 0 :=
  (by decide +kernel : ∀ t : Fin grid0.N, _)

/-- What point `t` writes back is the block at `t` of `relu` of the flattened argument. -/
theorem flushed_eq (c : Dev nD) (t : Fin cfg0.N) :
    (dats m 0 c).flushed 1 t
      = ((cfg0.win 1).blk t).view.read (Elt F) (relu S131072x1024 (V m c main_v0)) := by
  show (cfg0.win 1).cut (grid0.coords t) ((dats m 0 c).after 1 t) = _
  rw [after0_1]
  unfold out0_1
  rw [View.canon_unit_zero zero_offsets]
  simp only [View.ld_unit_zero (S := S2048x1024) zero_offsets]
  rw [payload_eq]
  obtain ⟨e0, e1, e2, e3⟩ := index_facts t
  funext j
  show FloatOps.maximumf (V m c main_v0 (((cfg0.win 0).blk t).view.emb j)) _
      = FloatOps.maximumf (V m c main_v0 (((cfg0.win 1).blk t).view.emb j)) _
  have h0 : ((cfg0.win 0).blk t).view.emb j = ((cfg0.win 1).blk t).view.emb j := by
    funext a; apply Fin.ext
    match a with
    | ⟨0, _⟩ => show win0_0.index t (0 : Fin 2) * 2048 + 1 * (j 0).val = win0_1.index t (0 : Fin 2) * 2048 + 1 * (j 0).val; omega
    | ⟨1, _⟩ => show win0_0.index t (1 : Fin 2) * 1024 + 1 * (j 1).val = win0_1.index t (1 : Fin 2) * 1024 + 1 * (j 1).val; omega
  rw [h0]

/-! ## The blocks tile the rows -/

/-- A row-and-column index lies in point `t`'s block iff each coordinate is in the block's range. -/
theorem mem_block (t : Fin cfg0.N) (i : S131072x1024.Idx) :
    i ∈ ((cfg0.win 1).blk t).view.set ↔ ∀ a : Fin 2, win0_1.index t a * S2048x1024.size a ≤ (i a).val
      ∧ (i a).val < win0_1.index t a * S2048x1024.size a + S2048x1024.size a := by
  show i ∈ ((View.whole main_v1).slice (win0_1.rect t)).set ↔ _
  rw [View.set_slice_whole, Rect.mem_set_unit]
  exact Iff.rfl

/-- Row `r` is written back by point `r / 2048`. -/
theorem covered (i : S131072x1024.Idx) :
    ∃ t : Fin cfg0.N, (cfg0.win 1).flush t = true ∧ i ∈ ((cfg0.win 1).blk t).view.set := by
  have hi0 : (i 0).val < 131072 := (i 0).isLt
  have hi1 : (i 1).val < 1024 := (i 1).isLt
  have hlt : (i 0).val / 2048 < cfg0.N := by
    show (i 0).val / 2048 < grid0.N
    rw [N_0]; omega
  obtain ⟨e0, e1, e2, e3⟩ := index_facts ⟨(i 0).val / 2048, hlt⟩
  refine ⟨⟨(i 0).val / 2048, hlt⟩, flush0_1 _, ?_⟩
  rw [mem_block]
  intro a
  match a with
  | ⟨0, _⟩ =>
    show win0_1.index ⟨(i 0).val / 2048, hlt⟩ (0 : Fin 2) * 2048 ≤ (i 0).val
      ∧ (i 0).val < win0_1.index ⟨(i 0).val / 2048, hlt⟩ (0 : Fin 2) * 2048 + 2048
    rw [e2]
    show (i 0).val / 2048 * 2048 ≤ (i 0).val ∧ (i 0).val < (i 0).val / 2048 * 2048 + 2048
    omega
  | ⟨1, _⟩ =>
    show win0_1.index ⟨(i 0).val / 2048, hlt⟩ (1 : Fin 2) * 1024 ≤ (i 1).val
      ∧ (i 1).val < win0_1.index ⟨(i 0).val / 2048, hlt⟩ (1 : Fin 2) * 1024 + 1024
    rw [e3]
    omega

/-- After the call the result's array is `relu` of the flattened argument. -/
theorem final_rows (c : Dev nD) :
    (dats m 0 c).arrAt 1 cfg0.N = relu S131072x1024 (V m c main_v0) :=
  (dats m 0 c).arrAt_eq_of_cover 1 (relu S131072x1024 (V m c main_v0)) (fun t _ => flushed_eq m c t) covered

/-! ## The program's result -/

/-- The reshape after the call restores the argument's shape: the result is `relu` of the argument. -/
theorem result_eq (c : Dev nD) :
    Pipeline.afterTail₀ cfgs (dats m) 0 (V0 m) [hostOps1] c main_v2
      = relu S32x4096x1024 (m ((c : Thread nD τ).loc main_arg0)) := by
  unfold Pipeline.afterTail₀
  show StableHlo.after hostOps1 _ (Proc.devRef .tc main_v2) = _
  after_results
  have hw := (Pipeline.withArrays_arr spec0 launch0.win.arr_inj c (V0 m c) (fun w => (dats m 0 c).arrAt w cfg0.N) 1).trans
    ((final_rows m c).trans (congrArg (relu S131072x1024) (entry_rows m c)))
  funext i
  show shapeCast S32x4096x1024
      (Pipeline.withArrays spec0 c (V0 m c) (fun w => (dats m 0 c).arrAt w cfg0.N) (Proc.devRef .tc (Pipeline.arrRef spec0 1)))
      shapeCasts_S131072x1024_S32x4096x1024 i = _
  rw [hw]
  exact congrFun (shapeCast_relu_shapeCast (m ((c : Thread nD τ).loc main_arg0)) _ _) i

/-- The program's run, read: every weakly fair execution ends with the result at `relu` of the argument and the
    argument as launched. -/
theorem run : θ_run defs (onTc (τ := τ) (main (F := F))) ⟨m, fun _ => 0, ρ⟩ fun r => ∀ c : Dev nD,
      r.2.mem ((c : Thread nD τ).loc main_v2) = relu S32x4096x1024 (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.Rows

end
-- ==== Proof.RefValue.lean ====
/-
  What the idealized reference program leaves in its result: one host maximum of the argument against the zero
  constant broadcast to the argument's shape, which is `relu` of the argument by definition.
-/
import proofs.«405105_j20572893348680_3_alg».proof.Proof.Gen.ReferenceIdeal.Run
import proofs.«405105_j20572893348680_3_alg».proof.Proof.Relu

noncomputable section

namespace Cert.ReferenceIdeal.RefValue

open Idealize.ShloMosaic Idealize.ShloMosaic.TcCoe Idealize.SL.Sem
open Cert.ReferenceIdeal Cert.Relu

variable {F : FTy → Type} [FloatOps F]

/-- The reference's run, read: every weakly fair execution ends with the result at `relu` of the argument and the
    argument as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1) = relu S32x4096x1024 (m ((c.tc : Thread nD τ).loc main_arg0))
      ∧ r.2.mem ((c.tc : Thread nD τ).loc main_arg0) = m ((c.tc : Thread nD τ).loc main_arg0) :=
  (θ_run defs _ _).mono (fun _ h c => ⟨(h c).1.trans (maximumf_bcast_zero _ _ _ _ _), (h c).2⟩)
    (Cert.ReferenceIdeal.Value.run m ρ)

end Cert.ReferenceIdeal.RefValue

end
-- ==== Proof.lean ====
/-
  The kernel is a rectified linear unit over f32[32, 4096, 1024]: the argument is flattened to 131072 rows of 1024,
  a pipelined call over 64 blocks of 2048 rows replaces every entry by its maximum with zero, and the rows are
  reshaped back. The reference is one elementwise maximum of the argument with zero.

  Both results are `relu` of the argument (Proof/Relu.lean): entry `i` is the maximum of the argument's entry `i`
  and the float whose word is zero, the same scalar operation on the same two operands on both sides, so the
  two results agree at every float instance and in particular as extended reals; finiteness of the input is
  not used. The kernel side (Proof/KernelValue.lean) reads the generated frame run: each point writes back the
  block of `relu` of the flattened argument at its rows, the blocks tile the rows, and the reshape back
  commutes with the entrywise operation. The reference side (Proof/RefValue.lean) is its generated run.
  The three frames are the generated ones; the idealization rewrote nothing, so there is nothing to preserve.
-/
import proofs.«405105_j20572893348680_3_alg».proof.Defs
import proofs.«405105_j20572893348680_3_alg».proof.Proof.Gen.Kernel
import proofs.«405105_j20572893348680_3_alg».proof.Proof.Gen.Kernel.Skeleton
import proofs.«405105_j20572893348680_3_alg».proof.Proof.Gen.Kernel.Launch
import proofs.«405105_j20572893348680_3_alg».proof.Proof.Gen.Kernel.Points
import proofs.«405105_j20572893348680_3_alg».proof.Proof.Gen.Kernel.Frame
import proofs.«405105_j20572893348680_3_alg».proof.Proof.Gen.KernelIdeal
import proofs.«405105_j20572893348680_3_alg».proof.Proof.Gen.KernelIdeal.Skeleton
import proofs.«405105_j20572893348680_3_alg».proof.Proof.Gen.KernelIdeal.Launch
import proofs.«405105_j20572893348680_3_alg».proof.Proof.Gen.KernelIdeal.Points
import proofs.«405105_j20572893348680_3_alg».proof.Proof.Gen.KernelIdeal.Frame
import proofs.«405105_j20572893348680_3_alg».proof.Proof.Gen.ReferenceIdeal
import proofs.«405105_j20572893348680_3_alg».proof.Proof.Gen.ReferenceIdeal.Run
import proofs.«405105_j20572893348680_3_alg».proof.Proof.Gen.Pre_finite_inputs
import proofs.«405105_j20572893348680_3_alg».proof.Proof.Relu
import proofs.«405105_j20572893348680_3_alg».proof.Proof.KernelValue
import proofs.«405105_j20572893348680_3_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end at `relu` of the argument; the arguments agree, so the results are equal entry by entry. -/
theorem algebraic : Cert.algebraic_KernelIdeal_ReferenceIdeal := by
  intro m ρ m' ρ' _ hagree
  refine ⟨_, Cert.KernelIdeal.Rows.run (F := Ideal) m ρ, ?_⟩
  refine (θ_run Cert.ReferenceIdeal.defs _ _).mono (fun _ h c => ⟨(h c).1.trans ?_, (h c).2⟩)
    (Cert.ReferenceIdeal.RefValue.run (F := Ideal) m' ρ')
  rw [hagree c]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
